-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x256 : Shape := ⟨2, ![256, 256]⟩
abbrev S256x128 : Shape := ⟨2, ![256, 128]⟩
abbrev S128x256 : Shape := ⟨2, ![128, 256]⟩
abbrev S256x512 : Shape := ⟨2, ![256, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg7 : FVec F S256x512 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  main_v38

def fn_part1 {F : FTy → Type} [FloatOps F] (main_arg4 : FVec F S256x128 .f32) (main_arg5 : FVec F S128x256 .f32) (main_arg6 : FVec F S256x256 .f32) (main_arg7 : FVec F S256x512 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S8192x512 .f32) (main_arg1 : FVec F S8192x8192 .f32) (main_arg2 : FVec F S512x256 .f32) (main_arg3 : FVec F S256x256 .f32) (main_arg4 : FVec F S256x128 .f32) (main_arg5 : FVec F S128x256 .f32) (main_arg6 : FVec F S256x256 .f32) (main_arg7 : FVec F S256x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x256 : Shape := ⟨2, ![256, 256]⟩
abbrev S256x128 : Shape := ⟨2, ![256, 128]⟩
abbrev S128x256 : Shape := ⟨2, ![128, 256]⟩
abbrev S256x512 : Shape := ⟨2, ![256, 512]⟩
abbrev S256x8192 : Shape := ⟨2, ![256, 8192]⟩
abbrev S8192x256 : Shape := ⟨2, ![8192, 256]⟩
abbrev S512x8192 : Shape := ⟨2, ![512, 8192]⟩
abbrev S8192x128 : Shape := ⟨2, ![8192, 128]⟩
abbrev S512x128 : Shape := ⟨2, ![512, 128]⟩
abbrev S512x512 : Shape := ⟨2, ![512, 512]⟩

abbrev nBuf : Space → Nat
  | .hbm => 34
  | .vmem => 34
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x256, .f32⟩
  | .hbm, ⟨4, _⟩ => ⟨S256x128, .f32⟩
  | .hbm, ⟨5, _⟩ => ⟨S128x256, .f32⟩
  | .hbm, ⟨6, _⟩ => ⟨S256x256, .f32⟩
  | .hbm, ⟨7, _⟩ => ⟨S256x512, .f32⟩
  | .hbm, ⟨8, _⟩ => ⟨S8192x8192, .bf16⟩
  | .hbm, ⟨9, _⟩ => ⟨S8192x512, .bf16⟩
  | .hbm, ⟨10, _⟩ => ⟨S512x256, .bf16⟩
  | .hbm, ⟨11, _⟩ => ⟨S8192x256, .f32⟩
  | .hbm, ⟨12, _⟩ => ⟨S8192x256, .bf16⟩
  | .hbm, ⟨13, _⟩ => ⟨S8192x256, .bf16⟩
  | .hbm, ⟨14, _⟩ => ⟨S256x256, .bf16⟩
  | .hbm, ⟨15, _⟩ => ⟨S8192x256, .f32⟩
  | .hbm, ⟨16, _⟩ => ⟨S8192x256, .bf16⟩
  | .hbm, ⟨17, _⟩ => ⟨S8192x256, .bf16⟩
  | .hbm, ⟨18, _⟩ => ⟨S256x128, .bf16⟩
  | .hbm, ⟨19, _⟩ => ⟨S8192x128, .f32⟩
  | .hbm, ⟨20, _⟩ => ⟨S8192x128, .bf16⟩
  | .hbm, ⟨21, _⟩ => ⟨S8192x128, .bf16⟩
  | .hbm, ⟨22, _⟩ => ⟨S128x256, .bf16⟩
  | .hbm, ⟨23, _⟩ => ⟨S8192x256, .f32⟩
  | .hbm, ⟨24, _⟩ => ⟨S8192x256, .bf16⟩
  | .hbm, ⟨25, _⟩ => ⟨S8192x256, .bf16⟩
  | .hbm, ⟨26, _⟩ => ⟨S256x256, .bf16⟩
  | .hbm, ⟨27, _⟩ => ⟨S8192x256, .f32⟩
  | .hbm, ⟨28, _⟩ => ⟨S8192x256, .bf16⟩
  | .hbm, ⟨29, _⟩ => ⟨S8192x256, .bf16⟩
  | .hbm, ⟨30, _⟩ => ⟨S256x512, .bf16⟩
  | .hbm, ⟨31, _⟩ => ⟨S8192x512, .f32⟩
  | .hbm, ⟨32, _⟩ => ⟨S8192x512, .bf16⟩
  | .hbm, ⟨33, _⟩ => ⟨S8192x512, .f32⟩
  | .local _ .vmem, ⟨0, _⟩ => ⟨S256x8192, .f32⟩
  | .local _ .vmem, ⟨1, _⟩ => ⟨S256x8192, .f32⟩
  | .local _ .vmem, ⟨2, _⟩ => ⟨S256x8192, .bf16⟩
  | .local _ .vmem, ⟨3, _⟩ => ⟨S256x8192, .bf16⟩
  | .local _ .vmem, ⟨4, _⟩ => ⟨S512x8192, .bf16⟩
  | .local _ .vmem, ⟨5, _⟩ => ⟨S512x8192, .bf16⟩
  | .local _ .vmem, ⟨6, _⟩ => ⟨S8192x256, .bf16⟩
  | .local _ .vmem, ⟨7, _⟩ => ⟨S512x256, .bf16⟩
  | .local _ .vmem, ⟨8, _⟩ => ⟨S512x256, .bf16⟩
  | .local _ .vmem, ⟨9, _⟩ => ⟨S512x8192, .bf16⟩
  | .local _ .vmem, ⟨10, _⟩ => ⟨S512x8192, .bf16⟩
  | .local _ .vmem, ⟨11, _⟩ => ⟨S8192x256, .bf16⟩
  | .local _ .vmem, ⟨12, _⟩ => ⟨S512x256, .bf16⟩
  | .local _ .vmem, ⟨13, _⟩ => ⟨S512x256, .bf16⟩
  | .local _ .vmem, ⟨14, _⟩ => ⟨S512x8192, .bf16⟩
  | .local _ .vmem, ⟨15, _⟩ => ⟨S512x8192, .bf16⟩
  | .local _ .vmem, ⟨16, _⟩ => ⟨S8192x128, .bf16⟩
  | .local _ .vmem, ⟨17, _⟩ => ⟨S512x128, .bf16⟩
  | .local _ .vmem, ⟨18, _⟩ => ⟨S512x128, .bf16⟩
  | .local _ .vmem, ⟨19, _⟩ => ⟨S512x8192, .bf16⟩
  | .local _ .vmem, ⟨20, _⟩ => ⟨S512x8192, .bf16⟩
  | .local _ .vmem, ⟨21, _⟩ => ⟨S8192x256, .bf16⟩
  | .local _ .vmem, ⟨22, _⟩ => ⟨S512x256, .bf16⟩
  | .local _ .vmem, ⟨23, _⟩ => ⟨S512x256, .bf16⟩
  | .local _ .vmem, ⟨24, _⟩ => ⟨S512x8192, .bf16⟩
  | .local _ .vmem, ⟨25, _⟩ => ⟨S512x8192, .bf16⟩
  | .local _ .vmem, ⟨26, _⟩ => ⟨S8192x256, .bf16⟩
  | .local _ .vmem, ⟨27, _⟩ => ⟨S512x256, .bf16⟩
  | .local _ .vmem, ⟨28, _⟩ => ⟨S512x256, .bf16⟩
  | .local _ .vmem, ⟨29, _⟩ => ⟨S512x8192, .bf16⟩
  | .local _ .vmem, ⟨30, _⟩ => ⟨S512x8192, .bf16⟩
  | .local _ .vmem, ⟨31, _⟩ => ⟨S8192x512, .bf16⟩
  | .local _ .vmem, ⟨32, _⟩ => ⟨S512x512, .f32⟩
  | .local _ .vmem, ⟨33, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg2_1 : Ref sig .tc := ⟨.vmem, 18, rfl⟩
abbrev cc4_stg0_0 : Ref sig .tc := ⟨.vmem, 19, rfl⟩
abbrev cc4_stg0_1 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg2_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg2_1 : Ref sig .tc := ⟨.vmem, 28, rfl⟩
abbrev cc6_stg0_0 : Ref sig .tc := ⟨.vmem, 29, rfl⟩
abbrev cc6_stg0_1 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem2_1 : DmaSem sig := 18
abbrev cc4_sem0_0 : DmaSem sig := 19
abbrev cc4_sem0_1 : DmaSem sig := 20
abbrev cc4_sem1_0 : DmaSem sig := 21
abbrev cc4_sem2_0 : DmaSem sig := 22
abbrev cc4_sem2_1 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem2_1 : DmaSem sig := 28
abbrev cc6_sem0_0 : DmaSem sig := 29
abbrev cc6_sem0_1 : DmaSem sig := 30
abbrev cc6_sem1_0 : DmaSem sig := 31
abbrev cc6_sem2_0 : DmaSem sig := 32
abbrev cc6_sem2_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x8192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x8192 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8192x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x8192 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8192x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  packedbf16_S256x8192_S256x8192_0_0 : (Rect.unit (s := S256x8192) ![0, 0] S256x8192.size inb_S256x8192_S256x8192_0_0).PackedRows (EltTy.packing .bf16)
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  inb_S512x512_S512x512_0_0 : ∀ a, (![0, 0] : Fin 2 → Nat) a + S512x512.size a ≤ S512x512.size a
  h_S512x512 : 0 < S512x512.numel
  dot_S8192x512_S512x256_S8192x256_1_0_0_1_n_n_wf : DotDims.WF S8192x512 S512x256 S8192x256 [1] [0] [0] [1] [] []
  dot_S512x8192_S8192x256_S512x256_1_0_0_1_n_n_wf : DotDims.WF S512x8192 S8192x256 S512x256 [1] [0] [0] [1] [] []
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  dot_S512x8192_S8192x128_S512x128_1_0_0_1_n_n_wf : DotDims.WF S512x8192 S8192x128 S512x128 [1] [0] [0] [1] [] []
  dot_S8192x128_S128x256_S8192x256_1_0_0_1_n_n_wf : DotDims.WF S8192x128 S128x256 S8192x256 [1] [0] [0] [1] [] []
  dot_S8192x256_S256x512_S8192x512_1_0_0_1_n_n_wf : DotDims.WF S8192x256 S256x512 S8192x512 [1] [0] [0] [1] [] []
  dot_S512x8192_S8192x512_S512x512_1_0_0_1_n_n_wf : DotDims.WF S512x8192 S8192x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .bf16 = 32 ∨ (Rect.block (s := S8192x8192) S256x8192.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .bf16 = 32 ∨ (Rect.block (s := S8192x8192) S512x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x256.size a
  hwx1_2 : ∀ i : grid1.Coords, EltTy.bits .bf16 = 32 ∨ (Rect.block (s := S8192x256) S512x256.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x8192.size a ≤ S8192x8192.size a
  hwx2_0 : ∀ i : grid2.Coords, EltTy.bits .bf16 = 32 ∨ (Rect.block (s := S8192x8192) S512x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .bf16 = 32 ∨ (Rect.block (s := S8192x256) S8192x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S8192x256.size a
  hwx2_2 : ∀ i : grid2.Coords, EltTy.bits .bf16 = 32 ∨ (Rect.block (s := S8192x256) S512x256.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x8192.size a ≤ S8192x8192.size a
  hwx3_0 : ∀ i : grid3.Coords, EltTy.bits .bf16 = 32 ∨ (Rect.block (s := S8192x8192) S512x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S8192x128.size a
  hwx3_1 : ∀ i : grid3.Coords, EltTy.bits .bf16 = 32 ∨ (Rect.block (s := S8192x128) S8192x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S8192x128.size a
  hwx3_2 : ∀ i : grid3.Coords, EltTy.bits .bf16 = 32 ∨ (Rect.block (s := S8192x128) S512x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x8192.size a ≤ S8192x8192.size a
  hwx4_0 : ∀ i : grid4.Coords, EltTy.bits .bf16 = 32 ∨ (Rect.block (s := S8192x8192) S512x8192.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x256.size a ≤ S8192x256.size a
  hwx4_1 : ∀ i : grid4.Coords, EltTy.bits .bf16 = 32 ∨ (Rect.block (s := S8192x256) S8192x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x256.size a ≤ S8192x256.size a
  hwx4_2 : ∀ i : grid4.Coords, EltTy.bits .bf16 = 32 ∨ (Rect.block (s := S8192x256) S512x256.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x8192.size a ≤ S8192x8192.size a
  hwx5_0 : ∀ i : grid5.Coords, EltTy.bits .bf16 = 32 ∨ (Rect.block (s := S8192x8192) S512x8192.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S8192x256.size a ≤ S8192x256.size a
  hwx5_1 : ∀ i : grid5.Coords, EltTy.bits .bf16 = 32 ∨ (Rect.block (s := S8192x256) S8192x256.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x256.size a ≤ S8192x256.size a
  hwx5_2 : ∀ i : grid5.Coords, EltTy.bits .bf16 = 32 ∨ (Rect.block (s := S8192x256) S512x256.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x8192.size a ≤ S8192x8192.size a
  hwx6_0 : ∀ i : grid6.Coords, EltTy.bits .bf16 = 32 ∨ (Rect.block (s := S8192x8192) S512x8192.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8192x512.size a ≤ S8192x512.size a
  hwx6_1 : ∀ i : grid6.Coords, EltTy.bits .bf16 = 32 ∨ (Rect.block (s := S8192x512) S8192x512.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x512.size a ≤ S8192x512.size a
  hwx6_2 : ∀ i : grid6.Coords, EltTy.bits .f32 = 32 ∨ (Rect.block (s := S8192x512) S512x512.size (cc6_transform_2 i) (hinb6_2 i)).WholeWords (EltTy.packing .f32)

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S512x8192_S8192x512_S512x512_1_0_0_1_n_n : DotDims S512x8192 S8192x512 S512x512 where
  lhsContracting := [1]
  rhsContracting := [0]
  lhsNonContracting := [0]
  rhsNonContracting := [1]
  lhsBatch := []
  rhsBatch := []
  wf := dot_S512x8192_S8192x512_S512x512_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S512x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S512x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S512x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S8192x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v13) S512x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v0) S512x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S8192x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v17) S512x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v0) S512x8192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v20) S8192x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v21) S512x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v0) S512x8192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v24) S8192x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v25) S512x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x256 : Shape := ⟨2, ![256, 256]⟩
abbrev S256x128 : Shape := ⟨2, ![256, 128]⟩
abbrev S128x256 : Shape := ⟨2, ![128, 256]⟩
abbrev S256x512 : Shape := ⟨2, ![256, 512]⟩
abbrev S8192x256 : Shape := ⟨2, ![8192, 256]⟩
abbrev S_ : Shape := ⟨0, ![]⟩
abbrev S8192x128 : Shape := ⟨2, ![8192, 128]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x256, .f32⟩
  | .hbm, ⟨4, _⟩ => ⟨S256x128, .f32⟩
  | .hbm, ⟨5, _⟩ => ⟨S128x256, .f32⟩
  | .hbm, ⟨6, _⟩ => ⟨S256x256, .f32⟩
  | .hbm, ⟨7, _⟩ => ⟨S256x512, .f32⟩
  | .hbm, ⟨8, _⟩ => ⟨S8192x256, .f32⟩
  | .hbm, ⟨9, _⟩ => ⟨S8192x256, .f32⟩
  | .hbm, ⟨10, _⟩ => ⟨S_, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192x128, .f32⟩
  | .hbm, ⟨22, _⟩ => ⟨S8192x128, .f32⟩
  | .hbm, ⟨23, _⟩ => ⟨S8192x256, .f32⟩
  | .hbm, ⟨24, _⟩ => ⟨S8192x256, .f32⟩
  | .hbm, ⟨25, _⟩ => ⟨S_, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_cst : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call2_cst : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call3_cst : Ref sig .tc := ⟨.hbm, 25, rfl⟩
abbrev main_call3_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call4_cst : Ref sig .tc := ⟨.hbm, 30, rfl⟩
abbrev main_call4_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call5_cst : Ref sig .tc := ⟨.hbm, 35, rfl⟩
abbrev main_call5_v0 : Ref sig .tc := ⟨.hbm, 36, rfl⟩
abbrev main_v17 : Ref sig .tc := ⟨.hbm, 37, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  bcast_S_S8192x128 : S_.BroadcastsInDim S8192x128 (![] : Fin 0 → Fin S8192x128.rank)
  bcast_S_S8192x512 : S_.BroadcastsInDim S8192x512 (![] : Fin 0 → Fin S8192x512.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  dot_S8192x128_S128x256_S8192x256_1_0_0_1_n_n_wf : DotDims.WF S8192x128 S128x256 S8192x256 [1] [0] [0] [1] [] []
  dot_S8192x256_S256x512_S8192x512_1_0_0_1_n_n_wf : DotDims.WF S8192x256 S256x512 S8192x512 [1] [0] [0] [1] [] []
  dot_S8192x8192_S8192x512_S8192x512_1_0_0_1_n_n_wf : DotDims.WF S8192x8192 S8192x512 S8192x512 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.GcnSpec.lean ====
/-
  One graph-convolution layer over the extended reals is  relu (A · (Z · W)):  the row-by-column product
  mm of an M×K array with a K×N array, entry (r, q) the sum over k of x (r, k) · w (k, q), and relu the entrywise
  maximum with 0. The network is six such layers with one adjacency array A.
  Both programs are built from three whole-array operations whose readings at the extended reals are stated
  here once: a matrix product (inside a kernel body, into a zero accumulator; on the host) is mm, and the
  entrywise maximum with a splat of the zero word is relu. A change of float format is the identity there,
  so no lemma is needed for it.
-/
import proofs.«111130_j31250182045963_1_alg».proof.Proof.LibPlainDot
import Idealize.ShloMosaic.PureOps.Ideal.Laws
import Idealize.ShloMosaic.Lib.ValueIdx

noncomputable section

open scoped BigOperators

namespace Gcn

open Idealize.ShloMosaic Idealize.ShloMosaic.ValueIdx

/-- The product of an M×K array with a K×N array: entry (r, q) is the sum over k of x (r, k) · w (k, q). -/
def mm (M K N : Nat) (x : (⟨2, ![M, K]⟩ : Shape).Idx → EReal) (w : (⟨2, ![K, N]⟩ : Shape).Idx → EReal) :
    (⟨2, ![M, N]⟩ : Shape).Idx → EReal :=
  fun j => ∑ k : Fin K, x (ix2 (n0 := M) (n1 := K) ⟨(j 0).val, (j 0).isLt⟩ k) * w (ix2 (n0 := K) (n1 := N) k ⟨(j 1).val, (j 1).isLt⟩)

/-- The entrywise maximum with zero. -/
def relu {S : Shape} (x : S.Idx → EReal) : S.Idx → EReal := fun i => max (x i) 0

/-- One layer: aggregate over the neighbours after the dense step, then relu. -/
def layer (n h h' : Nat) (A : (⟨2, ![n, n]⟩ : Shape).Idx → EReal) (Z : (⟨2, ![n, h]⟩ : Shape).Idx → EReal)
    (W : (⟨2, ![h, h']⟩ : Shape).Idx → EReal) : (⟨2, ![n, h']⟩ : Shape).Idx → EReal :=
  relu (mm n n h' A (mm n h h' Z W))

/-- The network: six layers over one adjacency array, widths 512 → 256 → 256 → 128 → 256 → 256 → 512. -/
def net (X : (⟨2, ![8192, 512]⟩ : Shape).Idx → EReal) (A : (⟨2, ![8192, 8192]⟩ : Shape).Idx → EReal)
    (W1 : (⟨2, ![512, 256]⟩ : Shape).Idx → EReal) (W2 : (⟨2, ![256, 256]⟩ : Shape).Idx → EReal)
    (W3 : (⟨2, ![256, 128]⟩ : Shape).Idx → EReal) (W4 : (⟨2, ![128, 256]⟩ : Shape).Idx → EReal)
    (W5 : (⟨2, ![256, 256]⟩ : Shape).Idx → EReal) (W6 : (⟨2, ![256, 512]⟩ : Shape).Idx → EReal) :
    (⟨2, ![8192, 512]⟩ : Shape).Idx → EReal :=
  layer 8192 256 512 A (layer 8192 256 256 A (layer 8192 128 256 A (layer 8192 256 128 A
    (layer 8192 256 256 A (layer 8192 512 256 A X W1) W2) W3) W4) W5) W6

/-- The host's product of two arrays (of any two float formats) is mm. -/
theorem hostDot_eq (M K N : Nat) {φ₁ φ₂ : FTy} (x : FVec Ideal ⟨2, ![M, K]⟩ φ₁) (w : FVec Ideal ⟨2, ![K, N]⟩ φ₂) :
    Host.dotGeneral (DotDims.plain M K N) none x w = mm M K N x w :=
  funext fun j => PlainDot.dotGeneral_apply M K N .single x w j

/-- A kernel's product into the zero accumulator is mm. -/
theorem matmul_eq (M K N : Nat) {φ₁ φ₂ : FTy} (x : FVec Ideal ⟨2, ![M, K]⟩ φ₁) (w : FVec Ideal ⟨2, ![K, N]⟩ φ₂) :
    matmul (DotDims.plain M K N) none x w (constant ⟨2, ![M, N]⟩ .f32 0x00000000#32) = mm M K N x w :=
  funext fun j => PlainDot.matmul_zero_apply M K N x w j

/-- The maximum with a splat of the zero word, as a kernel body writes it, is relu. -/
theorem relu_of_broadcast {S : Shape} (x : FVec Ideal S .f32) :
    maximumf x (broadcast S (Scalar.ofBits (F := Ideal) .f32 0x00000000#32)) = relu x := by
  funext i
  show max (x i) (Ideal.ofBits .f32 0x00000000#32) = max (x i) 0
  rw [Ideal.ofBits_zero_f32]

/-- The maximum with the zero scalar broadcast along no axis, as the host writes it, is relu. -/
theorem relu_of_broadcastInDim {S : Shape} (h : (⟨0, ![]⟩ : Shape).BroadcastsInDim S ![]) (x : FVec Ideal S .f32) :
    maximumf x (broadcastInDim S ![] h (constant (F := Ideal) ⟨0, ![]⟩ .f32 0x00000000#32)) = relu x := by
  funext i
  show max (x i) (Ideal.ofBits .f32 0x00000000#32) = max (x i) 0
  rw [Ideal.ofBits_zero_f32]

/-- Row locality of relu (A · Y): the entry at j of the product of a block of rows with Y is the entry at i of the
    whole product, when the block's row of j is A's row of i and j, i name the same column. -/
theorem relu_mm_block {Mb M K N : Nat} (A : (⟨2, ![M, K]⟩ : Shape).Idx → EReal) (Y : (⟨2, ![K, N]⟩ : Shape).Idx → EReal)
    (x0 : (⟨2, ![Mb, K]⟩ : Shape).Idx → EReal) (x1 : (⟨2, ![K, N]⟩ : Shape).Idx → EReal)
    (j : (⟨2, ![Mb, N]⟩ : Shape).Idx) (i : (⟨2, ![M, N]⟩ : Shape).Idx)
    (hx0 : ∀ k : Fin K, x0 (ix2 (n0 := Mb) (n1 := K) ⟨(j 0).val, (j 0).isLt⟩ k) = A (ix2 (n0 := M) (n1 := K) ⟨(i 0).val, (i 0).isLt⟩ k))
    (hx1 : ∀ k : Fin K, x1 (ix2 (n0 := K) (n1 := N) k ⟨(j 1).val, (j 1).isLt⟩) = Y (ix2 (n0 := K) (n1 := N) k ⟨(i 1).val, (i 1).isLt⟩)) :
    relu (mm Mb K N x0 x1) j = relu (mm M K N A Y) i := by
  unfold relu mm
  simp only [hx0, hx1]

end Gcn

end
-- ==== Proof.Region0.lean ====
/-
  Region 0 of the program copies the 8192×8192 adjacency array A, block of 256 rows by block, into a second array
  through a change of float format, which at the extended reals is the identity: point t of the grid reads rows
  256 t … 256 t + 255 of A and writes the same rows of the result. The 32 blocks tile the 8192 rows, so the result
  array ends holding A.
-/
import proofs.«111130_j31250182045963_1_alg».proof.Proof.Gen.KernelIdeal.Frame
import Idealize.ShloMosaic.Lib.Pipeline.Value
import Idealize.ShloMosaic.PureOps.Ideal.Laws

set_option maxRecDepth 16384

noncomputable section

namespace Cert.KernelIdeal.Region0

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body stores is the block it loaded: the change of format is the identity on the extended reals. -/
theorem pay_eq (x0 : Vec Ideal S256x8192 .f32) : k0_pay1 x0 = x0 := rfl

/-- The whole-array contents the region's output array ends at: the adjacency array as found. -/
abbrev G (c : Dev nD) : S8192x8192.Idx → EReal := V c main_arg1

/-- The printed index maps over the grid: both windows move down the rows together, one block of 256 rows a point. -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) = t.val
    ∧ win0_1.index t (1 : Fin 2) = 0 :=
  (by decide +kernel : ∀ t : Fin grid0.N, _)

/-- What point t writes back is block t of A. -/
theorem flushed_eq (c : Dev nD) (t : Fin cfg0.N) :
    (dat0 V c).flushed 1 t = ((cfg0.win 1).blk t).view.read (Elt Ideal) (G V c) := by
  show (cfg0.win 1).cut (grid0.coords t) ((dat0 V c).after 1 t) = _
  rw [after0_1]
  unfold out0_1
  rw [View.canon_unit_zero hz]
  simp only [View.ld_unit_zero (S := S256x8192) hz]
  rw [pay_eq]
  obtain ⟨e0, e1, e2, e3⟩ := idx_facts t
  funext j
  show V c main_arg1 (((cfg0.win 0).blk t).view.emb j) = V c main_arg1 (((cfg0.win 1).blk t).view.emb j)
  refine congrArg (V c main_arg1) (funext fun a => Fin.ext ?_)
  match a with
  | ⟨0, _⟩ => show win0_0.index t (0 : Fin 2) * 256 + 1 * (j 0).val = win0_1.index t (0 : Fin 2) * 256 + 1 * (j 0).val; omega
  | ⟨1, _⟩ => show win0_0.index t (1 : Fin 2) * 8192 + 1 * (j 1).val = win0_1.index t (1 : Fin 2) * 8192 + 1 * (j 1).val; omega

/-- An index of the output array is in point t's block iff each coordinate is in the block's range on its axis. -/
theorem mem_blk (t : Fin cfg0.N) (i : S8192x8192.Idx) :
    i ∈ ((cfg0.win 1).blk t).view.set ↔ ∀ a : Fin 2, win0_1.index t a * S256x8192.size a ≤ (i a).val ∧ (i a).val < win0_1.index t a * S256x8192.size a + S256x8192.size a := by
  show i ∈ ((View.whole main_v0).slice (win0_1.rect t)).set ↔ _
  rw [View.set_slice_whole, Rect.mem_set_unit]
  exact Iff.rfl

/-- Every row is in the block of the point its quotient by 256 names. -/
theorem cover (i : S8192x8192.Idx) : ∃ t : Fin cfg0.N, (cfg0.win 1).flush t = true ∧ i ∈ ((cfg0.win 1).blk t).view.set := by
  have hi0 : (i 0).val < 8192 := (i 0).isLt
  have hi1 : (i 1).val < 8192 := (i 1).isLt
  refine ⟨⟨(i 0).val / 256, by rw [show cfg0.N = 32 from N_0]; omega⟩, flush0_1 _, ?_⟩
  rw [mem_blk]
  obtain ⟨e0, e1, e2, e3⟩ := idx_facts ⟨(i 0).val / 256, by rw [show cfg0.N = 32 from N_0]; omega⟩
  intro a
  match a with
  | ⟨0, _⟩ => show win0_1.index _ (0 : Fin 2) * 256 ≤ (i 0).val ∧ (i 0).val < win0_1.index _ (0 : Fin 2) * 256 + 256; rw [e2]; show (i 0).val / 256 * 256 ≤ (i 0).val ∧ (i 0).val < (i 0).val / 256 * 256 + 256; omega
  | ⟨1, _⟩ => show win0_1.index _ (1 : Fin 2) * 8192 ≤ (i 1).val ∧ (i 1).val < win0_1.index _ (1 : Fin 2) * 8192 + 8192; rw [e3]; omega

/-- The region's output array ends at the adjacency array it found. -/
theorem out_eq (c : Dev nD) : (dat0 V c).arrAt 1 cfg0.N = G V c :=
  (dat0 V c).arrAt_eq_of_cover 1 (G V c) (fun t _ => flushed_eq V c t) cover

end Cert.KernelIdeal.Region0

end
-- ==== Proof.Region1.lean ====
/-
  Region 1 of the program computes, for every row block of 512 rows, the block of
    relu (A · Y)
  where A is the 8192×8192 adjacency array the region finds in its first window's array and Y the 8192×256
  array in its second window's (held whole in the staging buffer at every point). Point t of the grid reads rows
  512 t … 512 t + 511 of A, all of Y, and writes rows 512 t … 512 t + 511 of the result: entry (p, q) of the block
  is the sum over k of A (512 t + p, k) · Y (k, q), then the maximum with 0, which is entry (512 t + p, q) of
  relu (A · Y). The 16 blocks tile the 8192 rows, so the array ends holding relu (A · Y).
-/
import proofs.«111130_j31250182045963_1_alg».proof.Proof.Gen.KernelIdeal.Frame
import proofs.«111130_j31250182045963_1_alg».proof.Proof.GcnSpec
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body stores, from the two blocks it loads: relu of their product. -/
theorem pay_eq (x0 : Vec Ideal S512x8192 .bf16) (x1 : Vec Ideal S8192x256 .bf16) :
    k1_pay1 x0 x1 = Gcn.relu (Gcn.mm 512 8192 256 x0 x1) := by
  unfold k1_pay1
  rw [shapeCast_self, shapeCast_self]
  show maximumf (matmul (DotDims.plain 512 8192 256) none x0 x1 (constant ⟨2, ![512, 256]⟩ .f32 0x00000000#32))
      (broadcast ⟨2, ![512, 256]⟩ (Scalar.ofBits (F := Ideal) .f32 0x00000000#32)) = _
  rw [Gcn.matmul_eq, Gcn.relu_of_broadcast]

/-- The whole-array function the region's output array ends at. -/
abbrev G (c : Dev nD) : S8192x256.Idx → EReal :=
  Gcn.relu (Gcn.mm 8192 8192 256 (V c main_v0) (V c main_v4))

/-- The printed index maps over the grid: the adjacency window and the output window move down the rows together,
    one block of 512 rows a point; the second operand's window stays on its one block. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is block t of relu (A · Y). -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S512x8192) hz, View.ld_unit_zero (S := S8192x256) hz]
  rw [pay_eq]
  obtain ⟨e0, e1, e2, e3, e4, e5⟩ := idx_facts t
  funext j
  refine Gcn.relu_mm_block (V c main_v0) (V c main_v4) (iblk1 V c 0 t) (iblk1 V c 1 t) ((cfg1.win 2).xinj (grid1.coords t) j)
    (((cfg1.win 2).blk t).view.emb j) (fun k => ?_) (fun k => ?_)
  · show V c main_v0 (((cfg1.win 0).blk t).view.emb (ix2 (n0 := 512) (n1 := 8192) ⟨(j 0).val, (j 0).isLt⟩ k)) = _
    refine congrArg (V c main_v0) (funext fun a => Fin.ext ?_)
    match a with
    | ⟨0, _⟩ => show win1_0.index t (0 : Fin 2) * 512 + 1 * (j 0).val = win1_2.index t (0 : Fin 2) * 512 + 1 * (j 0).val; omega
    | ⟨1, _⟩ => show win1_0.index t (1 : Fin 2) * 8192 + 1 * k.val = k.val; omega
  · show V c main_v4 (((cfg1.win 1).blk t).view.emb (ix2 (n0 := 8192) (n1 := 256) k ⟨(j 1).val, (j 1).isLt⟩)) = _
    refine congrArg (V c main_v4) (funext fun a => Fin.ext ?_)
    match a with
    | ⟨0, _⟩ => show win1_1.index t (0 : Fin 2) * 8192 + 1 * k.val = k.val; omega
    | ⟨1, _⟩ => show win1_1.index t (1 : Fin 2) * 256 + 1 * (j 1).val = win1_2.index t (1 : Fin 2) * 256 + 1 * (j 1).val; omega

/-- An index of the output array is in point t's block iff each coordinate is in the block's range on its axis. -/
theorem mem_blk (t : Fin cfg1.N) (i : S8192x256.Idx) :
    i ∈ ((cfg1.win 2).blk t).view.set ↔ ∀ a : Fin 2, win1_2.index t a * S512x256.size a ≤ (i a).val ∧ (i a).val < win1_2.index t a * S512x256.size a + S512x256.size a := by
  show i ∈ ((View.whole main_v5).slice (win1_2.rect t)).set ↔ _
  rw [View.set_slice_whole, Rect.mem_set_unit]
  exact Iff.rfl

/-- Every row is in the block of the point its quotient by 512 names. -/
theorem cover (i : S8192x256.Idx) : ∃ t : Fin cfg1.N, (cfg1.win 2).flush t = true ∧ i ∈ ((cfg1.win 2).blk t).view.set := by
  have hi0 : (i 0).val < 8192 := (i 0).isLt
  have hi1 : (i 1).val < 256 := (i 1).isLt
  refine ⟨⟨(i 0).val / 512, by rw [show cfg1.N = 16 from N_1]; omega⟩, flush1_2 _, ?_⟩
  rw [mem_blk]
  obtain ⟨e0, e1, e2, e3, e4, e5⟩ := idx_facts ⟨(i 0).val / 512, by rw [show cfg1.N = 16 from N_1]; omega⟩
  intro a
  match a with
  | ⟨0, _⟩ => show win1_2.index _ (0 : Fin 2) * 512 ≤ (i 0).val ∧ (i 0).val < win1_2.index _ (0 : Fin 2) * 512 + 512; rw [e4]; show (i 0).val / 512 * 512 ≤ (i 0).val ∧ (i 0).val < (i 0).val / 512 * 512 + 512; omega
  | ⟨1, _⟩ => show win1_2.index _ (1 : Fin 2) * 256 ≤ (i 1).val ∧ (i 1).val < win1_2.index _ (1 : Fin 2) * 256 + 256; rw [e5]; omega

/-- The region's output array ends at relu (A · Y) of the two arrays it found. -/
theorem out_eq (c : Dev nD) : (dat1 V c).arrAt 2 cfg1.N = G V c :=
  (dat1 V c).arrAt_eq_of_cover 2 (G V c) (fun t _ => flushed_eq V c t) cover

/-- The two input arrays are left as found. -/
theorem in0_eq (c : Dev nD) : (dat1 V c).arrAt 0 cfg1.N = V c main_v0 :=
  ((dat1 V c).arrAt_in 0 rfl cfg1.N).trans (A_eq1 V c 0)
theorem in1_eq (c : Dev nD) : (dat1 V c).arrAt 1 cfg1.N = V c main_v4 :=
  ((dat1 V c).arrAt_in 1 rfl cfg1.N).trans (A_eq1 V c 1)

end Cert.KernelIdeal.Region1

end
-- ==== Proof.Region2.lean ====
/-
  Region 2 of the program computes, for every row block of 512 rows, the block of
    relu (A · Y)
  where A is the 8192×8192 adjacency array the region finds in its first window's array and Y the 8192×256
  array in its second window's (held whole in the staging buffer at every point). Point t of the grid reads rows
  512 t … 512 t + 511 of A, all of Y, and writes rows 512 t … 512 t + 511 of the result: entry (p, q) of the block
  is the sum over k of A (512 t + p, k) · Y (k, q), then the maximum with 0, which is entry (512 t + p, q) of
  relu (A · Y). The 16 blocks tile the 8192 rows, so the array ends holding relu (A · Y).
-/
import proofs.«111130_j31250182045963_1_alg».proof.Proof.Gen.KernelIdeal.Frame
import proofs.«111130_j31250182045963_1_alg».proof.Proof.GcnSpec
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body stores, from the two blocks it loads: relu of their product. -/
theorem pay_eq (x0 : Vec Ideal S512x8192 .bf16) (x1 : Vec Ideal S8192x256 .bf16) :
    k2_pay1 x0 x1 = Gcn.relu (Gcn.mm 512 8192 256 x0 x1) := by
  unfold k2_pay1
  rw [shapeCast_self, shapeCast_self]
  show maximumf (matmul (DotDims.plain 512 8192 256) none x0 x1 (constant ⟨2, ![512, 256]⟩ .f32 0x00000000#32))
      (broadcast ⟨2, ![512, 256]⟩ (Scalar.ofBits (F := Ideal) .f32 0x00000000#32)) = _
  rw [Gcn.matmul_eq, Gcn.relu_of_broadcast]

/-- The whole-array function the region's output array ends at. -/
abbrev G (c : Dev nD) : S8192x256.Idx → EReal :=
  Gcn.relu (Gcn.mm 8192 8192 256 (V c main_v0) (V c main_v8))

/-- The printed index maps over the grid: the adjacency window and the output window move down the rows together,
    one block of 512 rows a point; the second operand's window stays on its one block. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of relu (A · Y). -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S512x8192) hz, View.ld_unit_zero (S := S8192x256) hz]
  rw [pay_eq]
  obtain ⟨e0, e1, e2, e3, e4, e5⟩ := idx_facts t
  funext j
  refine Gcn.relu_mm_block (V c main_v0) (V c main_v8) (iblk2 V c 0 t) (iblk2 V c 1 t) ((cfg2.win 2).xinj (grid2.coords t) j)
    (((cfg2.win 2).blk t).view.emb j) (fun k => ?_) (fun k => ?_)
  · show V c main_v0 (((cfg2.win 0).blk t).view.emb (ix2 (n0 := 512) (n1 := 8192) ⟨(j 0).val, (j 0).isLt⟩ k)) = _
    refine congrArg (V c main_v0) (funext fun a => Fin.ext ?_)
    match a with
    | ⟨0, _⟩ => show win2_0.index t (0 : Fin 2) * 512 + 1 * (j 0).val = win2_2.index t (0 : Fin 2) * 512 + 1 * (j 0).val; omega
    | ⟨1, _⟩ => show win2_0.index t (1 : Fin 2) * 8192 + 1 * k.val = k.val; omega
  · show V c main_v8 (((cfg2.win 1).blk t).view.emb (ix2 (n0 := 8192) (n1 := 256) k ⟨(j 1).val, (j 1).isLt⟩)) = _
    refine congrArg (V c main_v8) (funext fun a => Fin.ext ?_)
    match a with
    | ⟨0, _⟩ => show win2_1.index t (0 : Fin 2) * 8192 + 1 * k.val = k.val; omega
    | ⟨1, _⟩ => show win2_1.index t (1 : Fin 2) * 256 + 1 * (j 1).val = win2_2.index t (1 : Fin 2) * 256 + 1 * (j 1).val; omega

/-- An index of the output array is in point t's block iff each coordinate is in the block's range on its axis. -/
theorem mem_blk (t : Fin cfg2.N) (i : S8192x256.Idx) :
    i ∈ ((cfg2.win 2).blk t).view.set ↔ ∀ a : Fin 2, win2_2.index t a * S512x256.size a ≤ (i a).val ∧ (i a).val < win2_2.index t a * S512x256.size a + S512x256.size a := by
  show i ∈ ((View.whole main_v9).slice (win2_2.rect t)).set ↔ _
  rw [View.set_slice_whole, Rect.mem_set_unit]
  exact Iff.rfl

/-- Every row is in the block of the point its quotient by 512 names. -/
theorem cover (i : S8192x256.Idx) : ∃ t : Fin cfg2.N, (cfg2.win 2).flush t = true ∧ i ∈ ((cfg2.win 2).blk t).view.set := by
  have hi0 : (i 0).val < 8192 := (i 0).isLt
  have hi1 : (i 1).val < 256 := (i 1).isLt
  refine ⟨⟨(i 0).val / 512, by rw [show cfg2.N = 16 from N_2]; omega⟩, flush2_2 _, ?_⟩
  rw [mem_blk]
  obtain ⟨e0, e1, e2, e3, e4, e5⟩ := idx_facts ⟨(i 0).val / 512, by rw [show cfg2.N = 16 from N_2]; omega⟩
  intro a
  match a with
  | ⟨0, _⟩ => show win2_2.index _ (0 : Fin 2) * 512 ≤ (i 0).val ∧ (i 0).val < win2_2.index _ (0 : Fin 2) * 512 + 512; rw [e4]; show (i 0).val / 512 * 512 ≤ (i 0).val ∧ (i 0).val < (i 0).val / 512 * 512 + 512; omega
  | ⟨1, _⟩ => show win2_2.index _ (1 : Fin 2) * 256 ≤ (i 1).val ∧ (i 1).val < win2_2.index _ (1 : Fin 2) * 256 + 256; rw [e5]; omega

/-- The region's output array ends at relu (A · Y) of the two arrays it found. -/
theorem out_eq (c : Dev nD) : (dat2 V c).arrAt 2 cfg2.N = G V c :=
  (dat2 V c).arrAt_eq_of_cover 2 (G V c) (fun t _ => flushed_eq V c t) cover

/-- The two input arrays are left as found. -/
theorem in0_eq (c : Dev nD) : (dat2 V c).arrAt 0 cfg2.N = V c main_v0 :=
  ((dat2 V c).arrAt_in 0 rfl cfg2.N).trans (A_eq2 V c 0)
theorem in1_eq (c : Dev nD) : (dat2 V c).arrAt 1 cfg2.N = V c main_v8 :=
  ((dat2 V c).arrAt_in 1 rfl cfg2.N).trans (A_eq2 V c 1)

end Cert.KernelIdeal.Region2

end
-- ==== Proof.Region3.lean ====
/-
  Region 3 of the program computes, for every row block of 512 rows, the block of
    relu (A · Y)
  where A is the 8192×8192 adjacency array the region finds in its first window's array and Y the 8192×128
  array in its second window's (held whole in the staging buffer at every point). Point t of the grid reads rows
  512 t … 512 t + 511 of A, all of Y, and writes rows 512 t … 512 t + 511 of the result: entry (p, q) of the block
  is the sum over k of A (512 t + p, k) · Y (k, q), then the maximum with 0, which is entry (512 t + p, q) of
  relu (A · Y). The 16 blocks tile the 8192 rows, so the array ends holding relu (A · Y).
-/
import proofs.«111130_j31250182045963_1_alg».proof.Proof.Gen.KernelIdeal.Frame
import proofs.«111130_j31250182045963_1_alg».proof.Proof.GcnSpec
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body stores, from the two blocks it loads: relu of their product. -/
theorem pay_eq (x0 : Vec Ideal S512x8192 .bf16) (x1 : Vec Ideal S8192x128 .bf16) :
    k3_pay1 x0 x1 = Gcn.relu (Gcn.mm 512 8192 128 x0 x1) := by
  unfold k3_pay1
  rw [shapeCast_self, shapeCast_self]
  show maximumf (matmul (DotDims.plain 512 8192 128) none x0 x1 (constant ⟨2, ![512, 128]⟩ .f32 0x00000000#32))
      (broadcast ⟨2, ![512, 128]⟩ (Scalar.ofBits (F := Ideal) .f32 0x00000000#32)) = _
  rw [Gcn.matmul_eq, Gcn.relu_of_broadcast]

/-- The whole-array function the region's output array ends at. -/
abbrev G (c : Dev nD) : S8192x128.Idx → EReal :=
  Gcn.relu (Gcn.mm 8192 8192 128 (V c main_v0) (V c main_v12))

/-- The printed index maps over the grid: the adjacency window and the output window move down the rows together,
    one block of 512 rows a point; the second operand's window stays on its one block. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of relu (A · Y). -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz]
  simp only [View.ld_unit_zero (S := S512x8192) hz, View.ld_unit_zero (S := S8192x128) hz]
  rw [pay_eq]
  obtain ⟨e0, e1, e2, e3, e4, e5⟩ := idx_facts t
  funext j
  refine Gcn.relu_mm_block (V c main_v0) (V c main_v12) (iblk3 V c 0 t) (iblk3 V c 1 t) ((cfg3.win 2).xinj (grid3.coords t) j)
    (((cfg3.win 2).blk t).view.emb j) (fun k => ?_) (fun k => ?_)
  · show V c main_v0 (((cfg3.win 0).blk t).view.emb (ix2 (n0 := 512) (n1 := 8192) ⟨(j 0).val, (j 0).isLt⟩ k)) = _
    refine congrArg (V c main_v0) (funext fun a => Fin.ext ?_)
    match a with
    | ⟨0, _⟩ => show win3_0.index t (0 : Fin 2) * 512 + 1 * (j 0).val = win3_2.index t (0 : Fin 2) * 512 + 1 * (j 0).val; omega
    | ⟨1, _⟩ => show win3_0.index t (1 : Fin 2) * 8192 + 1 * k.val = k.val; omega
  · show V c main_v12 (((cfg3.win 1).blk t).view.emb (ix2 (n0 := 8192) (n1 := 128) k ⟨(j 1).val, (j 1).isLt⟩)) = _
    refine congrArg (V c main_v12) (funext fun a => Fin.ext ?_)
    match a with
    | ⟨0, _⟩ => show win3_1.index t (0 : Fin 2) * 8192 + 1 * k.val = k.val; omega
    | ⟨1, _⟩ => show win3_1.index t (1 : Fin 2) * 128 + 1 * (j 1).val = win3_2.index t (1 : Fin 2) * 128 + 1 * (j 1).val; omega

/-- An index of the output array is in point t's block iff each coordinate is in the block's range on its axis. -/
theorem mem_blk (t : Fin cfg3.N) (i : S8192x128.Idx) :
    i ∈ ((cfg3.win 2).blk t).view.set ↔ ∀ a : Fin 2, win3_2.index t a * S512x128.size a ≤ (i a).val ∧ (i a).val < win3_2.index t a * S512x128.size a + S512x128.size a := by
  show i ∈ ((View.whole main_v13).slice (win3_2.rect t)).set ↔ _
  rw [View.set_slice_whole, Rect.mem_set_unit]
  exact Iff.rfl

/-- Every row is in the block of the point its quotient by 512 names. -/
theorem cover (i : S8192x128.Idx) : ∃ t : Fin cfg3.N, (cfg3.win 2).flush t = true ∧ i ∈ ((cfg3.win 2).blk t).view.set := by
  have hi0 : (i 0).val < 8192 := (i 0).isLt
  have hi1 : (i 1).val < 128 := (i 1).isLt
  refine ⟨⟨(i 0).val / 512, by rw [show cfg3.N = 16 from N_3]; omega⟩, flush3_2 _, ?_⟩
  rw [mem_blk]
  obtain ⟨e0, e1, e2, e3, e4, e5⟩ := idx_facts ⟨(i 0).val / 512, by rw [show cfg3.N = 16 from N_3]; omega⟩
  intro a
  match a with
  | ⟨0, _⟩ => show win3_2.index _ (0 : Fin 2) * 512 ≤ (i 0).val ∧ (i 0).val < win3_2.index _ (0 : Fin 2) * 512 + 512; rw [e4]; show (i 0).val / 512 * 512 ≤ (i 0).val ∧ (i 0).val < (i 0).val / 512 * 512 + 512; omega
  | ⟨1, _⟩ => show win3_2.index _ (1 : Fin 2) * 128 ≤ (i 1).val ∧ (i 1).val < win3_2.index _ (1 : Fin 2) * 128 + 128; rw [e5]; omega

/-- The region's output array ends at relu (A · Y) of the two arrays it found. -/
theorem out_eq (c : Dev nD) : (dat3 V c).arrAt 2 cfg3.N = G V c :=
  (dat3 V c).arrAt_eq_of_cover 2 (G V c) (fun t _ => flushed_eq V c t) cover

/-- The two input arrays are left as found. -/
theorem in0_eq (c : Dev nD) : (dat3 V c).arrAt 0 cfg3.N = V c main_v0 :=
  ((dat3 V c).arrAt_in 0 rfl cfg3.N).trans (A_eq3 V c 0)
theorem in1_eq (c : Dev nD) : (dat3 V c).arrAt 1 cfg3.N = V c main_v12 :=
  ((dat3 V c).arrAt_in 1 rfl cfg3.N).trans (A_eq3 V c 1)

end Cert.KernelIdeal.Region3

end
-- ==== Proof.Region4.lean ====
/-
  Region 4 of the program computes, for every row block of 512 rows, the block of
    relu (A · Y)
  where A is the 8192×8192 adjacency array the region finds in its first window's array and Y the 8192×256
  array in its second window's (held whole in the staging buffer at every point). Point t of the grid reads rows
  512 t … 512 t + 511 of A, all of Y, and writes rows 512 t … 512 t + 511 of the result: entry (p, q) of the block
  is the sum over k of A (512 t + p, k) · Y (k, q), then the maximum with 0, which is entry (512 t + p, q) of
  relu (A · Y). The 16 blocks tile the 8192 rows, so the array ends holding relu (A · Y).
-/
import proofs.«111130_j31250182045963_1_alg».proof.Proof.Gen.KernelIdeal.Frame
import proofs.«111130_j31250182045963_1_alg».proof.Proof.GcnSpec
import Idealize.ShloMosaic.Lib.Pipeline.Value

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body stores, from the two blocks it loads: relu of their product. -/
theorem pay_eq (x0 : Vec Ideal S512x8192 .bf16) (x1 : Vec Ideal S8192x256 .bf16) :
    k4_pay1 x0 x1 = Gcn.relu (Gcn.mm 512 8192 256 x0 x1) := by
  unfold k4_pay1
  rw [shapeCast_self, shapeCast_self]
  show maximumf (matmul (DotDims.plain 512 8192 256) none x0 x1 (constant ⟨2, ![512, 256]⟩ .f32 0x00000000#32))
      (broadcast ⟨2, ![512, 256]⟩ (Scalar.ofBits (F := Ideal) .f32 0x00000000#32)) = _
  rw [Gcn.matmul_eq, Gcn.relu_of_broadcast]

/-- The whole-array function the region's output array ends at. -/
abbrev G (c : Dev nD) : S8192x256.Idx → EReal :=
  Gcn.relu (Gcn.mm 8192 8192 256 (V c main_v0) (V c main_v16))

/-- The printed index maps over the grid: the adjacency window and the output window move down the rows together,
    one block of 512 rows a point; the second operand's window stays on its one block. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point t writes back is block t of relu (A · Y). -/
theorem flushed_eq (c : Dev nD) (t : Fin cfg4.N) :
    (dat4 V c).flushed 2 t = ((cfg4.win 2).blk t).view.read (Elt Ideal) (G V c) := by
  show (cfg4.win 2).cut (grid4.coords t) ((dat4 V c).after 2 t) = _
  rw [after4_2]
  unfold out4_2
  rw [View.canon_unit_zero hz]
  simp only [View.ld_unit_zero (S := S512x8192) hz, View.ld_unit_zero (S := S8192x256) hz]
  rw [pay_eq]
  obtain ⟨e0, e1, e2, e3, e4, e5⟩ := idx_facts t
  funext j
  refine Gcn.relu_mm_block (V c main_v0) (V c main_v16) (iblk4 V c 0 t) (iblk4 V c 1 t) ((cfg4.win 2).xinj (grid4.coords t) j)
    (((cfg4.win 2).blk t).view.emb j) (fun k => ?_) (fun k => ?_)
  · show V c main_v0 (((cfg4.win 0).blk t).view.emb (ix2 (n0 := 512) (n1 := 8192) ⟨(j 0).val, (j 0).isLt⟩ k)) = _
    refine congrArg (V c main_v0) (funext fun a => Fin.ext ?_)
    match a with
    | ⟨0, _⟩ => show win4_0.index t (0 : Fin 2) * 512 + 1 * (j 0).val = win4_2.index t (0 : Fin 2) * 512 + 1 * (j 0).val; omega
    | ⟨1, _⟩ => show win4_0.index t (1 : Fin 2) * 8192 + 1 * k.val = k.val; omega
  · show V c main_v16 (((cfg4.win 1).blk t).view.emb (ix2 (n0 := 8192) (n1 := 256) k ⟨(j 1).val, (j 1).isLt⟩)) = _
    refine congrArg (V c main_v16) (funext fun a => Fin.ext ?_)
    match a with
    | ⟨0, _⟩ => show win4_1.index t (0 : Fin 2) * 8192 + 1 * k.val = k.val; omega
    | ⟨1, _⟩ => show win4_1.index t (1 : Fin 2) * 256 + 1 * (j 1).val = win4_2.index t (1 : Fin 2) * 256 + 1 * (j 1).val; omega

/-- An index of the output array is in point t's block iff each coordinate is in the block's range on its axis. -/
theorem mem_blk (t : Fin cfg4.N) (i : S8192x256.Idx) :
    i ∈ ((cfg4.win 2).blk t).view.set ↔ ∀ a : Fin 2, win4_2.index t a * S512x256.size a ≤ (i a).val ∧ (i a).val < win4_2.index t a * S512x256.size a + S512x256.size a := by
  show i ∈ ((View.whole main_v17).slice (win4_2.rect t)).set ↔ _
  rw [View.set_slice_whole, Rect.mem_set_unit]
  exact Iff.rfl

/-- Every row is in the block of the point its quotient by 512 names. -/
theorem cover (i : S8192x256.Idx) : ∃ t : Fin cfg4.N, (cfg4.win 2).flush t = true ∧ i ∈ ((cfg4.win 2).blk t).view.set := by
  have hi0 : (i 0).val < 8192 := (i 0).isLt
  have hi1 : (i 1).val < 256 := (i 1).isLt
  refine ⟨⟨(i 0).val / 512, by rw [show cfg4.N = 16 from N_4]; omega⟩, flush4_2 _, ?_⟩
  rw [mem_blk]
  obtain ⟨e0, e1, e2, e3, e4, e5⟩ := idx_facts ⟨(i 0).val / 512, by rw [show cfg4.N = 16 from N_4]; omega⟩
  intro a
  match a with
  | ⟨0, _⟩ => show win4_2.index _ (0 : Fin 2) * 512 ≤ (i 0).val ∧ (i 0).val < win4_2.index _ (0 : Fin 2) * 512 + 512; rw [e4]; show (i 0).val / 512 * 512 ≤ (i 0).val ∧ (i 0).val < (i 0).val / 512 * 512 + 512; omega
  | ⟨1, _⟩ => show win4_2.index _ (1 : Fin 2) * 256 ≤ (i 1).val ∧ (i 1).val < win4_2.index _ (1 : Fin 2) * 256 + 256; rw [e5]; omega

/-- The region's output array ends at relu (A · Y) of the two arrays it found. -/
theorem out_eq (c : Dev nD) : (dat4 V c).arrAt 2 cfg4.N = G V c :=
  (dat4 V c).arrAt_eq_of_cover 2 (G V c) (fun t _ => flushed_eq V c t) cover

/-- The two input arrays are left as found. -/
theorem in0_eq (c : Dev nD) : (dat4 V c).arrAt 0 cfg4.N = V c main_v0 :=
  ((dat4 V c).arrAt_in 0 rfl cfg4.N).trans (A_eq4 V c 0)
theorem in1_eq (c : Dev nD) : (dat4 V c).arrAt 1 cfg4.N = V c main_v16 :=
  ((dat4 V c).arrAt_in 1 rfl cfg4.N).trans (A_eq4 V c 1)

end Cert.KernelIdeal.Region4

end
-- ==== Proof.Region5.lean ====
/-
  Region 5 of the program computes, for every row block of 512 rows, the block of
    relu (A · Y)
  where A is the 8192×8192 adjacency array the region finds in its first window's array and Y the 8192×256
  array in its second window's (held whole in the staging buffer at every point). Point t of the grid reads rows
  512 t … 512 t + 511 of A, all of Y, and writes rows 512 t … 512 t + 511 of the result: entry (p, q) of the block
  is the sum over k of A (512 t + p, k) · Y (k, q), then the maximum with 0, which is entry (512 t + p, q) of
  relu (A · Y). The 16 blocks tile the 8192 rows, so the array ends holding relu (A · Y).
-/
import proofs.«111130_j31250182045963_1_alg».proof.Proof.Gen.KernelIdeal.Frame
import proofs.«111130_j31250182045963_1_alg».proof.Proof.GcnSpec
import Idealize.ShloMosaic.Lib.Pipeline.Value

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body stores, from the two blocks it loads: relu of their product. -/
theorem pay_eq (x0 : Vec Ideal S512x8192 .bf16) (x1 : Vec Ideal S8192x256 .bf16) :
    k5_pay1 x0 x1 = Gcn.relu (Gcn.mm 512 8192 256 x0 x1) := by
  unfold k5_pay1
  rw [shapeCast_self, shapeCast_self]
  show maximumf (matmul (DotDims.plain 512 8192 256) none x0 x1 (constant ⟨2, ![512, 256]⟩ .f32 0x00000000#32))
      (broadcast ⟨2, ![512, 256]⟩ (Scalar.ofBits (F := Ideal) .f32 0x00000000#32)) = _
  rw [Gcn.matmul_eq, Gcn.relu_of_broadcast]

/-- The whole-array function the region's output array ends at. -/
abbrev G (c : Dev nD) : S8192x256.Idx → EReal :=
  Gcn.relu (Gcn.mm 8192 8192 256 (V c main_v0) (V c main_v20))

/-- The printed index maps over the grid: the adjacency window and the output window move down the rows together,
    one block of 512 rows a point; the second operand's window stays on its one block. -/
theorem idx_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point t writes back is block t of relu (A · Y). -/
theorem flushed_eq (c : Dev nD) (t : Fin cfg5.N) :
    (dat5 V c).flushed 2 t = ((cfg5.win 2).blk t).view.read (Elt Ideal) (G V c) := by
  show (cfg5.win 2).cut (grid5.coords t) ((dat5 V c).after 2 t) = _
  rw [after5_2]
  unfold out5_2
  rw [View.canon_unit_zero hz]
  simp only [View.ld_unit_zero (S := S512x8192) hz, View.ld_unit_zero (S := S8192x256) hz]
  rw [pay_eq]
  obtain ⟨e0, e1, e2, e3, e4, e5⟩ := idx_facts t
  funext j
  refine Gcn.relu_mm_block (V c main_v0) (V c main_v20) (iblk5 V c 0 t) (iblk5 V c 1 t) ((cfg5.win 2).xinj (grid5.coords t) j)
    (((cfg5.win 2).blk t).view.emb j) (fun k => ?_) (fun k => ?_)
  · show V c main_v0 (((cfg5.win 0).blk t).view.emb (ix2 (n0 := 512) (n1 := 8192) ⟨(j 0).val, (j 0).isLt⟩ k)) = _
    refine congrArg (V c main_v0) (funext fun a => Fin.ext ?_)
    match a with
    | ⟨0, _⟩ => show win5_0.index t (0 : Fin 2) * 512 + 1 * (j 0).val = win5_2.index t (0 : Fin 2) * 512 + 1 * (j 0).val; omega
    | ⟨1, _⟩ => show win5_0.index t (1 : Fin 2) * 8192 + 1 * k.val = k.val; omega
  · show V c main_v20 (((cfg5.win 1).blk t).view.emb (ix2 (n0 := 8192) (n1 := 256) k ⟨(j 1).val, (j 1).isLt⟩)) = _
    refine congrArg (V c main_v20) (funext fun a => Fin.ext ?_)
    match a with
    | ⟨0, _⟩ => show win5_1.index t (0 : Fin 2) * 8192 + 1 * k.val = k.val; omega
    | ⟨1, _⟩ => show win5_1.index t (1 : Fin 2) * 256 + 1 * (j 1).val = win5_2.index t (1 : Fin 2) * 256 + 1 * (j 1).val; omega

/-- An index of the output array is in point t's block iff each coordinate is in the block's range on its axis. -/
theorem mem_blk (t : Fin cfg5.N) (i : S8192x256.Idx) :
    i ∈ ((cfg5.win 2).blk t).view.set ↔ ∀ a : Fin 2, win5_2.index t a * S512x256.size a ≤ (i a).val ∧ (i a).val < win5_2.index t a * S512x256.size a + S512x256.size a := by
  show i ∈ ((View.whole main_v21).slice (win5_2.rect t)).set ↔ _
  rw [View.set_slice_whole, Rect.mem_set_unit]
  exact Iff.rfl

/-- Every row is in the block of the point its quotient by 512 names. -/
theorem cover (i : S8192x256.Idx) : ∃ t : Fin cfg5.N, (cfg5.win 2).flush t = true ∧ i ∈ ((cfg5.win 2).blk t).view.set := by
  have hi0 : (i 0).val < 8192 := (i 0).isLt
  have hi1 : (i 1).val < 256 := (i 1).isLt
  refine ⟨⟨(i 0).val / 512, by rw [show cfg5.N = 16 from N_5]; omega⟩, flush5_2 _, ?_⟩
  rw [mem_blk]
  obtain ⟨e0, e1, e2, e3, e4, e5⟩ := idx_facts ⟨(i 0).val / 512, by rw [show cfg5.N = 16 from N_5]; omega⟩
  intro a
  match a with
  | ⟨0, _⟩ => show win5_2.index _ (0 : Fin 2) * 512 ≤ (i 0).val ∧ (i 0).val < win5_2.index _ (0 : Fin 2) * 512 + 512; rw [e4]; show (i 0).val / 512 * 512 ≤ (i 0).val ∧ (i 0).val < (i 0).val / 512 * 512 + 512; omega
  | ⟨1, _⟩ => show win5_2.index _ (1 : Fin 2) * 256 ≤ (i 1).val ∧ (i 1).val < win5_2.index _ (1 : Fin 2) * 256 + 256; rw [e5]; omega

/-- The region's output array ends at relu (A · Y) of the two arrays it found. -/
theorem out_eq (c : Dev nD) : (dat5 V c).arrAt 2 cfg5.N = G V c :=
  (dat5 V c).arrAt_eq_of_cover 2 (G V c) (fun t _ => flushed_eq V c t) cover

/-- The two input arrays are left as found. -/
theorem in0_eq (c : Dev nD) : (dat5 V c).arrAt 0 cfg5.N = V c main_v0 :=
  ((dat5 V c).arrAt_in 0 rfl cfg5.N).trans (A_eq5 V c 0)
theorem in1_eq (c : Dev nD) : (dat5 V c).arrAt 1 cfg5.N = V c main_v20 :=
  ((dat5 V c).arrAt_in 1 rfl cfg5.N).trans (A_eq5 V c 1)

end Cert.KernelIdeal.Region5

end
-- ==== Proof.Region6.lean ====
/-
  Region 6 of the program computes, for every row block of 512 rows, the block of
    relu (A · Y)
  where A is the 8192×8192 adjacency array the region finds in its first window's array and Y the 8192×512
  array in its second window's (held whole in the staging buffer at every point). Point t of the grid reads rows
  512 t … 512 t + 511 of A, all of Y, and writes rows 512 t … 512 t + 511 of the result: entry (p, q) of the block
  is the sum over k of A (512 t + p, k) · Y (k, q), then the maximum with 0, which is entry (512 t + p, q) of
  relu (A · Y). The 16 blocks tile the 8192 rows, so the array ends holding relu (A · Y).
-/
import proofs.«111130_j31250182045963_1_alg».proof.Proof.Gen.KernelIdeal.Frame
import proofs.«111130_j31250182045963_1_alg».proof.Proof.GcnSpec
import Idealize.ShloMosaic.Lib.Pipeline.Value

set_option maxRecDepth 16384

noncomputable section

namespace Cert.KernelIdeal.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body stores, from the two blocks it loads: relu of their product. -/
theorem pay_eq (x0 : Vec Ideal S512x8192 .bf16) (x1 : Vec Ideal S8192x512 .bf16) :
    k6_pay1 x0 x1 = Gcn.relu (Gcn.mm 512 8192 512 x0 x1) := by
  unfold k6_pay1
  rw [shapeCast_self, shapeCast_self]
  show maximumf (matmul (DotDims.plain 512 8192 512) none x0 x1 (constant ⟨2, ![512, 512]⟩ .f32 0x00000000#32))
      (broadcast ⟨2, ![512, 512]⟩ (Scalar.ofBits (F := Ideal) .f32 0x00000000#32)) = _
  rw [Gcn.matmul_eq, Gcn.relu_of_broadcast]

/-- The whole-array function the region's output array ends at. -/
abbrev G (c : Dev nD) : S8192x512.Idx → EReal :=
  Gcn.relu (Gcn.mm 8192 8192 512 (V c main_v0) (V c main_v24))

/-- The printed index maps over the grid: the adjacency window and the output window move down the rows together,
    one block of 512 rows a point; the second operand's window stays on its one block. -/
theorem idx_facts : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- What point t writes back is block t of relu (A · Y). -/
theorem flushed_eq (c : Dev nD) (t : Fin cfg6.N) :
    (dat6 V c).flushed 2 t = ((cfg6.win 2).blk t).view.read (Elt Ideal) (G V c) := by
  show (cfg6.win 2).cut (grid6.coords t) ((dat6 V c).after 2 t) = _
  rw [after6_2]
  unfold out6_2
  rw [View.canon_unit_zero hz]
  simp only [View.ld_unit_zero (S := S512x8192) hz, View.ld_unit_zero (S := S8192x512) hz]
  rw [pay_eq]
  obtain ⟨e0, e1, e2, e3, e4, e5⟩ := idx_facts t
  funext j
  refine Gcn.relu_mm_block (V c main_v0) (V c main_v24) (iblk6 V c 0 t) (iblk6 V c 1 t) ((cfg6.win 2).xinj (grid6.coords t) j)
    (((cfg6.win 2).blk t).view.emb j) (fun k => ?_) (fun k => ?_)
  · show V c main_v0 (((cfg6.win 0).blk t).view.emb (ix2 (n0 := 512) (n1 := 8192) ⟨(j 0).val, (j 0).isLt⟩ k)) = _
    refine congrArg (V c main_v0) (funext fun a => Fin.ext ?_)
    match a with
    | ⟨0, _⟩ => show win6_0.index t (0 : Fin 2) * 512 + 1 * (j 0).val = win6_2.index t (0 : Fin 2) * 512 + 1 * (j 0).val; omega
    | ⟨1, _⟩ => show win6_0.index t (1 : Fin 2) * 8192 + 1 * k.val = k.val; omega
  · show V c main_v24 (((cfg6.win 1).blk t).view.emb (ix2 (n0 := 8192) (n1 := 512) k ⟨(j 1).val, (j 1).isLt⟩)) = _
    refine congrArg (V c main_v24) (funext fun a => Fin.ext ?_)
    match a with
    | ⟨0, _⟩ => show win6_1.index t (0 : Fin 2) * 8192 + 1 * k.val = k.val; omega
    | ⟨1, _⟩ => show win6_1.index t (1 : Fin 2) * 512 + 1 * (j 1).val = win6_2.index t (1 : Fin 2) * 512 + 1 * (j 1).val; omega

/-- An index of the output array is in point t's block iff each coordinate is in the block's range on its axis. -/
theorem mem_blk (t : Fin cfg6.N) (i : S8192x512.Idx) :
    i ∈ ((cfg6.win 2).blk t).view.set ↔ ∀ a : Fin 2, win6_2.index t a * S512x512.size a ≤ (i a).val ∧ (i a).val < win6_2.index t a * S512x512.size a + S512x512.size a := by
  show i ∈ ((View.whole main_v25).slice (win6_2.rect t)).set ↔ _
  rw [View.set_slice_whole, Rect.mem_set_unit]
  exact Iff.rfl

/-- Every row is in the block of the point its quotient by 512 names. -/
theorem cover (i : S8192x512.Idx) : ∃ t : Fin cfg6.N, (cfg6.win 2).flush t = true ∧ i ∈ ((cfg6.win 2).blk t).view.set := by
  have hi0 : (i 0).val < 8192 := (i 0).isLt
  have hi1 : (i 1).val < 512 := (i 1).isLt
  refine ⟨⟨(i 0).val / 512, by rw [show cfg6.N = 16 from N_6]; omega⟩, flush6_2 _, ?_⟩
  rw [mem_blk]
  obtain ⟨e0, e1, e2, e3, e4, e5⟩ := idx_facts ⟨(i 0).val / 512, by rw [show cfg6.N = 16 from N_6]; omega⟩
  intro a
  match a with
  | ⟨0, _⟩ => show win6_2.index _ (0 : Fin 2) * 512 ≤ (i 0).val ∧ (i 0).val < win6_2.index _ (0 : Fin 2) * 512 + 512; rw [e4]; show (i 0).val / 512 * 512 ≤ (i 0).val ∧ (i 0).val < (i 0).val / 512 * 512 + 512; omega
  | ⟨1, _⟩ => show win6_2.index _ (1 : Fin 2) * 512 ≤ (i 1).val ∧ (i 1).val < win6_2.index _ (1 : Fin 2) * 512 + 512; rw [e5]; omega

/-- The region's output array ends at relu (A · Y) of the two arrays it found. -/
theorem out_eq (c : Dev nD) : (dat6 V c).arrAt 2 cfg6.N = G V c :=
  (dat6 V c).arrAt_eq_of_cover 2 (G V c) (fun t _ => flushed_eq V c t) cover

/-- The two input arrays are left as found. -/
theorem in0_eq (c : Dev nD) : (dat6 V c).arrAt 0 cfg6.N = V c main_v0 :=
  ((dat6 V c).arrAt_in 0 rfl cfg6.N).trans (A_eq6 V c 0)
theorem in1_eq (c : Dev nD) : (dat6 V c).arrAt 1 cfg6.N = V c main_v24 :=
  ((dat6 V c).arrAt_in 1 rfl cfg6.N).trans (A_eq6 V c 1)

end Cert.KernelIdeal.Region6

end
-- ==== Proof.KernelWalk.lean ====
/-
  The contents of the idealized kernel's buffers at each boundary of @main, followed from the launch to the
  return. Region 0 leaves the adjacency array A (through a change of format, the identity here) in a second
  array; every later region reads that array and never writes it, and no host operation writes it, so each
  region finds A there. Before layer r the host multiplies the previous layer's result Z by the layer's weight
  array W (both through changes of format): the region's second operand is Z · W; the region leaves
  relu (A · (Z · W)) in its result array, the next layer's Z. A weight array is an argument: no region and no host
  operation writes it, so it holds its launch contents when its layer reads it. After region 6 the result array
  holds the six-layer network of the launch contents.
-/
import proofs.«111130_j31250182045963_1_alg».proof.Proof.Gen.KernelIdeal.Frame
import proofs.«111130_j31250182045963_1_alg».proof.Proof.GcnSpec
import proofs.«111130_j31250182045963_1_alg».proof.Proof.Region0
import proofs.«111130_j31250182045963_1_alg».proof.Proof.Region1
import proofs.«111130_j31250182045963_1_alg».proof.Proof.Region2
import proofs.«111130_j31250182045963_1_alg».proof.Proof.Region3
import proofs.«111130_j31250182045963_1_alg».proof.Proof.Region4
import proofs.«111130_j31250182045963_1_alg».proof.Proof.Region5
import proofs.«111130_j31250182045963_1_alg».proof.Proof.Region6
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The launch contents, at their literal types -/

abbrev aX (c : Dev nD) : S8192x512.Idx → EReal := m ((c : Thread nD τ).loc main_arg0)
abbrev aA (c : Dev nD) : S8192x8192.Idx → EReal := m ((c : Thread nD τ).loc main_arg1)
abbrev aW1 (c : Dev nD) : S512x256.Idx → EReal := m ((c : Thread nD τ).loc main_arg2)
abbrev aW2 (c : Dev nD) : S256x256.Idx → EReal := m ((c : Thread nD τ).loc main_arg3)
abbrev aW3 (c : Dev nD) : S256x128.Idx → EReal := m ((c : Thread nD τ).loc main_arg4)
abbrev aW4 (c : Dev nD) : S128x256.Idx → EReal := m ((c : Thread nD τ).loc main_arg5)
abbrev aW5 (c : Dev nD) : S256x256.Idx → EReal := m ((c : Thread nD τ).loc main_arg6)
abbrev aW6 (c : Dev nD) : S256x512.Idx → EReal := m ((c : Thread nD τ).loc main_arg7)

/-- The layers' results. -/
abbrev z1 (c : Dev nD) : S8192x256.Idx → EReal := Gcn.layer 8192 512 256 (aA m c) (aX m c) (aW1 m c)
abbrev z2 (c : Dev nD) : S8192x256.Idx → EReal := Gcn.layer 8192 256 256 (aA m c) (z1 m c) (aW2 m c)
abbrev z3 (c : Dev nD) : S8192x128.Idx → EReal := Gcn.layer 8192 256 128 (aA m c) (z2 m c) (aW3 m c)
abbrev z4 (c : Dev nD) : S8192x256.Idx → EReal := Gcn.layer 8192 128 256 (aA m c) (z3 m c) (aW4 m c)
abbrev z5 (c : Dev nD) : S8192x256.Idx → EReal := Gcn.layer 8192 256 256 (aA m c) (z4 m c) (aW5 m c)
abbrev z6 (c : Dev nD) : S8192x512.Idx → EReal := Gcn.layer 8192 256 512 (aA m c) (z5 m c) (aW6 m c)

/-! ## What each host stretch leaves alone -/

theorem h1_v0 (c : Dev nD) : W2 m ρ c (Proc.devRef .tc main_v0) = W1 m ρ c (Proc.devRef .tc main_v0) := by
  show StableHlo.after hostOps1 (W1 m ρ c) (Proc.devRef .tc main_v0) = _; after_results
theorem h1_arg3 (c : Dev nD) : W2 m ρ c (Proc.devRef .tc main_arg3) = W1 m ρ c (Proc.devRef .tc main_arg3) := by
  show StableHlo.after hostOps1 (W1 m ρ c) (Proc.devRef .tc main_arg3) = _; after_results
theorem h1_arg4 (c : Dev nD) : W2 m ρ c (Proc.devRef .tc main_arg4) = W1 m ρ c (Proc.devRef .tc main_arg4) := by
  show StableHlo.after hostOps1 (W1 m ρ c) (Proc.devRef .tc main_arg4) = _; after_results
theorem h1_arg5 (c : Dev nD) : W2 m ρ c (Proc.devRef .tc main_arg5) = W1 m ρ c (Proc.devRef .tc main_arg5) := by
  show StableHlo.after hostOps1 (W1 m ρ c) (Proc.devRef .tc main_arg5) = _; after_results
theorem h1_arg6 (c : Dev nD) : W2 m ρ c (Proc.devRef .tc main_arg6) = W1 m ρ c (Proc.devRef .tc main_arg6) := by
  show StableHlo.after hostOps1 (W1 m ρ c) (Proc.devRef .tc main_arg6) = _; after_results
theorem h1_arg7 (c : Dev nD) : W2 m ρ c (Proc.devRef .tc main_arg7) = W1 m ρ c (Proc.devRef .tc main_arg7) := by
  show StableHlo.after hostOps1 (W1 m ρ c) (Proc.devRef .tc main_arg7) = _; after_results

theorem h2_v0 (c : Dev nD) : W4 m ρ c (Proc.devRef .tc main_v0) = W3 m ρ c (Proc.devRef .tc main_v0) := by
  show StableHlo.after hostOps2 (W3 m ρ c) (Proc.devRef .tc main_v0) = _; after_results
theorem h2_arg4 (c : Dev nD) : W4 m ρ c (Proc.devRef .tc main_arg4) = W3 m ρ c (Proc.devRef .tc main_arg4) := by
  show StableHlo.after hostOps2 (W3 m ρ c) (Proc.devRef .tc main_arg4) = _; after_results
theorem h2_arg5 (c : Dev nD) : W4 m ρ c (Proc.devRef .tc main_arg5) = W3 m ρ c (Proc.devRef .tc main_arg5) := by
  show StableHlo.after hostOps2 (W3 m ρ c) (Proc.devRef .tc main_arg5) = _; after_results
theorem h2_arg6 (c : Dev nD) : W4 m ρ c (Proc.devRef .tc main_arg6) = W3 m ρ c (Proc.devRef .tc main_arg6) := by
  show StableHlo.after hostOps2 (W3 m ρ c) (Proc.devRef .tc main_arg6) = _; after_results
theorem h2_arg7 (c : Dev nD) : W4 m ρ c (Proc.devRef .tc main_arg7) = W3 m ρ c (Proc.devRef .tc main_arg7) := by
  show StableHlo.after hostOps2 (W3 m ρ c) (Proc.devRef .tc main_arg7) = _; after_results

theorem h3_v0 (c : Dev nD) : W6 m ρ c (Proc.devRef .tc main_v0) = W5 m ρ c (Proc.devRef .tc main_v0) := by
  show StableHlo.after hostOps3 (W5 m ρ c) (Proc.devRef .tc main_v0) = _; after_results
theorem h3_arg5 (c : Dev nD) : W6 m ρ c (Proc.devRef .tc main_arg5) = W5 m ρ c (Proc.devRef .tc main_arg5) := by
  show StableHlo.after hostOps3 (W5 m ρ c) (Proc.devRef .tc main_arg5) = _; after_results
theorem h3_arg6 (c : Dev nD) : W6 m ρ c (Proc.devRef .tc main_arg6) = W5 m ρ c (Proc.devRef .tc main_arg6) := by
  show StableHlo.after hostOps3 (W5 m ρ c) (Proc.devRef .tc main_arg6) = _; after_results
theorem h3_arg7 (c : Dev nD) : W6 m ρ c (Proc.devRef .tc main_arg7) = W5 m ρ c (Proc.devRef .tc main_arg7) := by
  show StableHlo.after hostOps3 (W5 m ρ c) (Proc.devRef .tc main_arg7) = _; after_results

theorem h4_v0 (c : Dev nD) : W8 m ρ c (Proc.devRef .tc main_v0) = W7 m ρ c (Proc.devRef .tc main_v0) := by
  show StableHlo.after hostOps4 (W7 m ρ c) (Proc.devRef .tc main_v0) = _; after_results
theorem h4_arg6 (c : Dev nD) : W8 m ρ c (Proc.devRef .tc main_arg6) = W7 m ρ c (Proc.devRef .tc main_arg6) := by
  show StableHlo.after hostOps4 (W7 m ρ c) (Proc.devRef .tc main_arg6) = _; after_results
theorem h4_arg7 (c : Dev nD) : W8 m ρ c (Proc.devRef .tc main_arg7) = W7 m ρ c (Proc.devRef .tc main_arg7) := by
  show StableHlo.after hostOps4 (W7 m ρ c) (Proc.devRef .tc main_arg7) = _; after_results

theorem h5_v0 (c : Dev nD) : W10 m ρ c (Proc.devRef .tc main_v0) = W9 m ρ c (Proc.devRef .tc main_v0) := by
  show StableHlo.after hostOps5 (W9 m ρ c) (Proc.devRef .tc main_v0) = _; after_results
theorem h5_arg7 (c : Dev nD) : W10 m ρ c (Proc.devRef .tc main_arg7) = W9 m ρ c (Proc.devRef .tc main_arg7) := by
  show StableHlo.after hostOps5 (W9 m ρ c) (Proc.devRef .tc main_arg7) = _; after_results

theorem h6_v0 (c : Dev nD) : W12 m ρ c (Proc.devRef .tc main_v0) = W11 m ρ c (Proc.devRef .tc main_v0) := by
  show StableHlo.after hostOps6 (W11 m ρ c) (Proc.devRef .tc main_v0) = _; after_results

/-! ## The weight arrays, when their layers read them -/

theorem x_at1 (c : Dev nD) : W1 m ρ c (Proc.devRef .tc main_arg0) = aX m c := W1_of_ne m ρ c main_arg0 (by decide)
theorem w1_at1 (c : Dev nD) : W1 m ρ c (Proc.devRef .tc main_arg2) = aW1 m c := W1_of_ne m ρ c main_arg2 (by decide)
theorem w2_at3 (c : Dev nD) : W3 m ρ c (Proc.devRef .tc main_arg3) = aW2 m c :=
  (W3_of_ne m ρ c main_arg3 (by decide)).trans <| (h1_arg3 m ρ c).trans <| W1_of_ne m ρ c main_arg3 (by decide)
theorem w3_at5 (c : Dev nD) : W5 m ρ c (Proc.devRef .tc main_arg4) = aW3 m c :=
  (W5_of_ne m ρ c main_arg4 (by decide)).trans <| (h2_arg4 m ρ c).trans <| (W3_of_ne m ρ c main_arg4 (by decide)).trans <|
    (h1_arg4 m ρ c).trans <| W1_of_ne m ρ c main_arg4 (by decide)
theorem w4_at7 (c : Dev nD) : W7 m ρ c (Proc.devRef .tc main_arg5) = aW4 m c :=
  (W7_of_ne m ρ c main_arg5 (by decide)).trans <| (h3_arg5 m ρ c).trans <| (W5_of_ne m ρ c main_arg5 (by decide)).trans <|
    (h2_arg5 m ρ c).trans <| (W3_of_ne m ρ c main_arg5 (by decide)).trans <| (h1_arg5 m ρ c).trans <| W1_of_ne m ρ c main_arg5 (by decide)
theorem w5_at9 (c : Dev nD) : W9 m ρ c (Proc.devRef .tc main_arg6) = aW5 m c :=
  (W9_of_ne m ρ c main_arg6 (by decide)).trans <| (h4_arg6 m ρ c).trans <| (W7_of_ne m ρ c main_arg6 (by decide)).trans <|
    (h3_arg6 m ρ c).trans <| (W5_of_ne m ρ c main_arg6 (by decide)).trans <| (h2_arg6 m ρ c).trans <|
    (W3_of_ne m ρ c main_arg6 (by decide)).trans <| (h1_arg6 m ρ c).trans <| W1_of_ne m ρ c main_arg6 (by decide)
theorem w6_at11 (c : Dev nD) : W11 m ρ c (Proc.devRef .tc main_arg7) = aW6 m c :=
  (W11_of_ne m ρ c main_arg7 (by decide)).trans <| (h5_arg7 m ρ c).trans <| (W9_of_ne m ρ c main_arg7 (by decide)).trans <|
    (h4_arg7 m ρ c).trans <| (W7_of_ne m ρ c main_arg7 (by decide)).trans <| (h3_arg7 m ρ c).trans <|
    (W5_of_ne m ρ c main_arg7 (by decide)).trans <| (h2_arg7 m ρ c).trans <| (W3_of_ne m ρ c main_arg7 (by decide)).trans <|
    (h1_arg7 m ρ c).trans <| W1_of_ne m ρ c main_arg7 (by decide)

/-! ## The adjacency array's copy, at every region's entry -/

theorem a_at1 (c : Dev nD) : W1 m ρ c (Proc.devRef .tc main_v0) = aA m c :=
  (W1_arr m ρ c 1).trans (Region0.out_eq (V0 m ρ) c)
theorem a_at2 (c : Dev nD) : W2 m ρ c (Proc.devRef .tc main_v0) = aA m c := (h1_v0 m ρ c).trans (a_at1 m ρ c)
theorem a_at3 (c : Dev nD) : W3 m ρ c (Proc.devRef .tc main_v0) = aA m c :=
  (W3_arr m ρ c 0).trans <| (Region1.in0_eq (V2 m ρ) c).trans (a_at2 m ρ c)
theorem a_at4 (c : Dev nD) : W4 m ρ c (Proc.devRef .tc main_v0) = aA m c := (h2_v0 m ρ c).trans (a_at3 m ρ c)
theorem a_at5 (c : Dev nD) : W5 m ρ c (Proc.devRef .tc main_v0) = aA m c :=
  (W5_arr m ρ c 0).trans <| (Region2.in0_eq (V4 m ρ) c).trans (a_at4 m ρ c)
theorem a_at6 (c : Dev nD) : W6 m ρ c (Proc.devRef .tc main_v0) = aA m c := (h3_v0 m ρ c).trans (a_at5 m ρ c)
theorem a_at7 (c : Dev nD) : W7 m ρ c (Proc.devRef .tc main_v0) = aA m c :=
  (W7_arr m ρ c 0).trans <| (Region3.in0_eq (V6 m ρ) c).trans (a_at6 m ρ c)
theorem a_at8 (c : Dev nD) : W8 m ρ c (Proc.devRef .tc main_v0) = aA m c := (h4_v0 m ρ c).trans (a_at7 m ρ c)
theorem a_at9 (c : Dev nD) : W9 m ρ c (Proc.devRef .tc main_v0) = aA m c :=
  (W9_arr m ρ c 0).trans <| (Region4.in0_eq (V8 m ρ) c).trans (a_at8 m ρ c)
theorem a_at10 (c : Dev nD) : W10 m ρ c (Proc.devRef .tc main_v0) = aA m c := (h5_v0 m ρ c).trans (a_at9 m ρ c)
theorem a_at11 (c : Dev nD) : W11 m ρ c (Proc.devRef .tc main_v0) = aA m c :=
  (W11_arr m ρ c 0).trans <| (Region5.in0_eq (V10 m ρ) c).trans (a_at10 m ρ c)
theorem a_at12 (c : Dev nD) : W12 m ρ c (Proc.devRef .tc main_v0) = aA m c := (h6_v0 m ρ c).trans (a_at11 m ρ c)

/-! ## The layers -/

/-- Before region 1 the host leaves X · W1 in its second operand's array. -/
theorem y1 (c : Dev nD) : W2 m ρ c (Proc.devRef .tc main_v4) = Gcn.mm 8192 512 256 (aX m c) (aW1 m c) := by
  show StableHlo.after hostOps1 (W1 m ρ c) (Proc.devRef .tc main_v4) = _
  after_results
  show Host.dotGeneral (F := Ideal) (φ₁ := .bf16) (φ₂ := .bf16) (DotDims.plain 8192 512 256) none (W1 m ρ c (Proc.devRef .tc main_arg0)) (W1 m ρ c (Proc.devRef .tc main_arg2)) = _
  rw [x_at1, w1_at1]
  exact Gcn.hostDot_eq 8192 512 256 _ _
/-- Region 1 leaves the first layer's result. -/
theorem r1 (c : Dev nD) : W3 m ρ c (Proc.devRef .tc main_v5) = z1 m c := by
  refine (W3_arr m ρ c 2).trans <| (Region1.out_eq (V2 m ρ) c).trans ?_
  show Gcn.relu (Gcn.mm 8192 8192 256 (W2 m ρ c (Proc.devRef .tc main_v0)) (W2 m ρ c (Proc.devRef .tc main_v4))) = _
  rw [a_at2, y1]
  rfl

theorem y2 (c : Dev nD) : W4 m ρ c (Proc.devRef .tc main_v8) = Gcn.mm 8192 256 256 (z1 m c) (aW2 m c) := by
  show StableHlo.after hostOps2 (W3 m ρ c) (Proc.devRef .tc main_v8) = _
  after_results
  show Host.dotGeneral (F := Ideal) (φ₁ := .bf16) (φ₂ := .bf16) (DotDims.plain 8192 256 256) none (W3 m ρ c (Proc.devRef .tc main_v5)) (W3 m ρ c (Proc.devRef .tc main_arg3)) = _
  rw [r1, w2_at3]
  exact Gcn.hostDot_eq 8192 256 256 _ _
theorem r2 (c : Dev nD) : W5 m ρ c (Proc.devRef .tc main_v9) = z2 m c := by
  refine (W5_arr m ρ c 2).trans <| (Region2.out_eq (V4 m ρ) c).trans ?_
  show Gcn.relu (Gcn.mm 8192 8192 256 (W4 m ρ c (Proc.devRef .tc main_v0)) (W4 m ρ c (Proc.devRef .tc main_v8))) = _
  rw [a_at4, y2]
  rfl

theorem y3 (c : Dev nD) : W6 m ρ c (Proc.devRef .tc main_v12) = Gcn.mm 8192 256 128 (z2 m c) (aW3 m c) := by
  show StableHlo.after hostOps3 (W5 m ρ c) (Proc.devRef .tc main_v12) = _
  after_results
  show Host.dotGeneral (F := Ideal) (φ₁ := .bf16) (φ₂ := .bf16) (DotDims.plain 8192 256 128) none (W5 m ρ c (Proc.devRef .tc main_v9)) (W5 m ρ c (Proc.devRef .tc main_arg4)) = _
  rw [r2, w3_at5]
  exact Gcn.hostDot_eq 8192 256 128 _ _
theorem r3 (c : Dev nD) : W7 m ρ c (Proc.devRef .tc main_v13) = z3 m c := by
  refine (W7_arr m ρ c 2).trans <| (Region3.out_eq (V6 m ρ) c).trans ?_
  show Gcn.relu (Gcn.mm 8192 8192 128 (W6 m ρ c (Proc.devRef .tc main_v0)) (W6 m ρ c (Proc.devRef .tc main_v12))) = _
  rw [a_at6, y3]
  rfl

theorem y4 (c : Dev nD) : W8 m ρ c (Proc.devRef .tc main_v16) = Gcn.mm 8192 128 256 (z3 m c) (aW4 m c) := by
  show StableHlo.after hostOps4 (W7 m ρ c) (Proc.devRef .tc main_v16) = _
  after_results
  show Host.dotGeneral (F := Ideal) (φ₁ := .bf16) (φ₂ := .bf16) (DotDims.plain 8192 128 256) none (W7 m ρ c (Proc.devRef .tc main_v13)) (W7 m ρ c (Proc.devRef .tc main_arg5)) = _
  rw [r3, w4_at7]
  exact Gcn.hostDot_eq 8192 128 256 _ _
theorem r4 (c : Dev nD) : W9 m ρ c (Proc.devRef .tc main_v17) = z4 m c := by
  refine (W9_arr m ρ c 2).trans <| (Region4.out_eq (V8 m ρ) c).trans ?_
  show Gcn.relu (Gcn.mm 8192 8192 256 (W8 m ρ c (Proc.devRef .tc main_v0)) (W8 m ρ c (Proc.devRef .tc main_v16))) = _
  rw [a_at8, y4]
  rfl

theorem y5 (c : Dev nD) : W10 m ρ c (Proc.devRef .tc main_v20) = Gcn.mm 8192 256 256 (z4 m c) (aW5 m c) := by
  show StableHlo.after hostOps5 (W9 m ρ c) (Proc.devRef .tc main_v20) = _
  after_results
  show Host.dotGeneral (F := Ideal) (φ₁ := .bf16) (φ₂ := .bf16) (DotDims.plain 8192 256 256) none (W9 m ρ c (Proc.devRef .tc main_v17)) (W9 m ρ c (Proc.devRef .tc main_arg6)) = _
  rw [r4, w5_at9]
  exact Gcn.hostDot_eq 8192 256 256 _ _
theorem r5 (c : Dev nD) : W11 m ρ c (Proc.devRef .tc main_v21) = z5 m c := by
  refine (W11_arr m ρ c 2).trans <| (Region5.out_eq (V10 m ρ) c).trans ?_
  show Gcn.relu (Gcn.mm 8192 8192 256 (W10 m ρ c (Proc.devRef .tc main_v0)) (W10 m ρ c (Proc.devRef .tc main_v20))) = _
  rw [a_at10, y5]
  rfl

theorem y6 (c : Dev nD) : W12 m ρ c (Proc.devRef .tc main_v24) = Gcn.mm 8192 256 512 (z5 m c) (aW6 m c) := by
  show StableHlo.after hostOps6 (W11 m ρ c) (Proc.devRef .tc main_v24) = _
  after_results
  show Host.dotGeneral (F := Ideal) (φ₁ := .bf16) (φ₂ := .bf16) (DotDims.plain 8192 256 512) none (W11 m ρ c (Proc.devRef .tc main_v21)) (W11 m ρ c (Proc.devRef .tc main_arg7)) = _
  rw [r5, w6_at11]
  exact Gcn.hostDot_eq 8192 256 512 _ _
theorem r6 (c : Dev nD) : W13 m ρ c (Proc.devRef .tc main_v25) = z6 m c := by
  refine (W13_arr m ρ c 2).trans <| (Region6.out_eq (V12 m ρ) c).trans ?_
  show Gcn.relu (Gcn.mm 8192 8192 512 (W12 m ρ c (Proc.devRef .tc main_v0)) (W12 m ρ c (Proc.devRef .tc main_v24))) = _
  rw [a_at12, y6]
  rfl

/-- After the last region the result array holds the network of the launch contents. -/
theorem result_eq (c : Dev nD) : W13 m ρ c (Proc.devRef .tc main_v25)
    = Gcn.net (aX m c) (aA m c) (aW1 m c) (aW2 m c) (aW3 m c) (aW4 m c) (aW5 m c) (aW6 m c) := r6 m ρ c

end Cert.KernelIdeal.Walk

end
-- ==== Proof.RefValue.lean ====
/-
  The reference's run ends with its result at a composed term of host operations: six times a product with the
  layer's weight array, a product with the adjacency array, and the entrywise maximum with a broadcast zero. Each
  product is the row-by-column product and each maximum the relu of the specification, so the term is the six-layer
  network of the argument arrays.
-/
import proofs.«111130_j31250182045963_1_alg».proof.Proof.Gen.ReferenceIdeal.Run
import proofs.«111130_j31250182045963_1_alg».proof.Proof.GcnSpec

noncomputable section

namespace Cert.ReferenceIdeal.RefValue

open Cert.ReferenceIdeal Cert.ReferenceIdeal.Gen Idealize.ShloMosaic Idealize.ShloMosaic.TcCoe

/-! The program's dimension-number records are the plain ones: contract the left operand's last axis with the
    right operand's first, no batch axis. -/
theorem dims_xw1 : dot_S8192x512_S512x256_S8192x256_1_0_0_1_n_n = DotDims.plain 8192 512 256 := rfl
theorem dims_zw256 : dot_S8192x256_S256x256_S8192x256_1_0_0_1_n_n = DotDims.plain 8192 256 256 := rfl
theorem dims_zw128 : dot_S8192x256_S256x128_S8192x128_1_0_0_1_n_n = DotDims.plain 8192 256 128 := rfl
theorem dims_zw4 : dot_S8192x128_S128x256_S8192x256_1_0_0_1_n_n = DotDims.plain 8192 128 256 := rfl
theorem dims_zw6 : dot_S8192x256_S256x512_S8192x512_1_0_0_1_n_n = DotDims.plain 8192 256 512 := rfl
theorem dims_a256 : dot_S8192x8192_S8192x256_S8192x256_1_0_0_1_n_n = DotDims.plain 8192 8192 256 := rfl
theorem dims_a128 : dot_S8192x8192_S8192x128_S8192x128_1_0_0_1_n_n = DotDims.plain 8192 8192 128 := rfl
theorem dims_a512 : dot_S8192x8192_S8192x512_S8192x512_1_0_0_1_n_n = DotDims.plain 8192 8192 512 := rfl

/-- The reference run's result term is the network of the argument arrays. -/
theorem result_eq (X : FVec Ideal S8192x512 .f32) (A : FVec Ideal S8192x8192 .f32) (W1 : FVec Ideal S512x256 .f32)
    (W2 : FVec Ideal S256x256 .f32) (W3 : FVec Ideal S256x128 .f32) (W4 : FVec Ideal S128x256 .f32)
    (W5 : FVec Ideal S256x256 .f32) (W6 : FVec Ideal S256x512 .f32) :
    maximumf (Host.dotGeneral dot_S8192x8192_S8192x512_S8192x512_1_0_0_1_n_n none A (Host.dotGeneral dot_S8192x256_S256x512_S8192x512_1_0_0_1_n_n none (maximumf (Host.dotGeneral dot_S8192x8192_S8192x256_S8192x256_1_0_0_1_n_n none A (Host.dotGeneral dot_S8192x256_S256x256_S8192x256_1_0_0_1_n_n none (maximumf (Host.dotGeneral dot_S8192x8192_S8192x256_S8192x256_1_0_0_1_n_n none A (Host.dotGeneral dot_S8192x128_S128x256_S8192x256_1_0_0_1_n_n none (maximumf (Host.dotGeneral dot_S8192x8192_S8192x128_S8192x128_1_0_0_1_n_n none A (Host.dotGeneral dot_S8192x256_S256x128_S8192x128_1_0_0_1_n_n none (maximumf (Host.dotGeneral dot_S8192x8192_S8192x256_S8192x256_1_0_0_1_n_n none A (Host.dotGeneral dot_S8192x256_S256x256_S8192x256_1_0_0_1_n_n none (maximumf (Host.dotGeneral dot_S8192x8192_S8192x256_S8192x256_1_0_0_1_n_n none A (Host.dotGeneral dot_S8192x512_S512x256_S8192x256_1_0_0_1_n_n none X W1)) (broadcastInDim S8192x256 ![] bcast_S_S8192x256 (constant (F := Ideal) S_ .f32 0x00000000#32))) W2)) (broadcastInDim S8192x256 ![] bcast_S_S8192x256 (constant (F := Ideal) S_ .f32 0x00000000#32))) W3)) (broadcastInDim S8192x128 ![] bcast_S_S8192x128 (constant (F := Ideal) S_ .f32 0x00000000#32))) W4)) (broadcastInDim S8192x256 ![] bcast_S_S8192x256 (constant (F := Ideal) S_ .f32 0x00000000#32))) W5)) (broadcastInDim S8192x256 ![] bcast_S_S8192x256 (constant (F := Ideal) S_ .f32 0x00000000#32))) W6)) (broadcastInDim S8192x512 ![] bcast_S_S8192x512 (constant (F := Ideal) S_ .f32 0x00000000#32))
      = Gcn.net X A W1 W2 W3 W4 W5 W6 := by
  simp only [dims_xw1, dims_zw256, dims_zw128, dims_zw4, dims_zw6, dims_a256, dims_a128, dims_a512, Gcn.hostDot_eq]
  simp only [Gcn.relu_of_broadcastInDim bcast_S_S8192x512, Gcn.relu_of_broadcastInDim bcast_S_S8192x256,
    Gcn.relu_of_broadcastInDim bcast_S_S8192x128]
  unfold Gcn.net Gcn.layer
  rfl

end Cert.ReferenceIdeal.RefValue

end
-- ==== Proof.lean ====
/-
  A six-layer graph convolution,  z ↦ relu (A · (z · W)),  over an 8192×8192 adjacency array A shared by the layers.
  The kernel program copies A once (a change of float format: the identity on the extended reals), and per layer lets
  the host form z · W and a pipelined region form relu (A · (z · W)) a block of 512 rows at a time; the reference is the
  same six layers as host operations. At the extended reals a product is the row-by-column sum whatever the tiling
  and the formats of its operands, so both programs end with the one function `Gcn.net` of the argument arrays;
  no law beyond that reading is used, and the precondition is not opened.
  The three frames: the two kernel programs' are the generated frames of the seven-region program; the reference's is
  its generated run with the result dropped. No operation was rewritten by the idealization, so there is nothing
  for it to preserve. The algebraic claim: the idealized kernel's run with its result array named (KernelRun), that
  array's contents followed through @main's boundaries (KernelWalk over Region0 … Region6), and the reference run's term
  (RefValue), both equal to `Gcn.net` (GcnSpec) of arguments that agree.
-/
import proofs.«111130_j31250182045963_1_alg».proof.Defs
import proofs.«111130_j31250182045963_1_alg».proof.Proof.Gen.Kernel
import proofs.«111130_j31250182045963_1_alg».proof.Proof.Gen.Kernel.Frame
import proofs.«111130_j31250182045963_1_alg».proof.Proof.Gen.KernelIdeal
import proofs.«111130_j31250182045963_1_alg».proof.Proof.Gen.KernelIdeal.Frame
import proofs.«111130_j31250182045963_1_alg».proof.Proof.Gen.ReferenceIdeal
import proofs.«111130_j31250182045963_1_alg».proof.Proof.Gen.ReferenceIdeal.Run
import proofs.«111130_j31250182045963_1_alg».proof.Proof.Gen.Pre_finite_inputs
import proofs.«111130_j31250182045963_1_alg».proof.Proof.KernelRun
import proofs.«111130_j31250182045963_1_alg».proof.Proof.KernelWalk
import proofs.«111130_j31250182045963_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network of the argument arrays in their result. -/
theorem algebraic : Cert.algebraic_KernelIdeal_ReferenceIdeal := by
  intro m ρ m' ρ' _ hagree
  refine ⟨fun c => Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Walk.result_eq m ρ c), (h c).2⟩)
      (Cert.KernelIdeal.Gen.run_named m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [a0, a1, a2, a3, a4, a5, a6, a7]
    exact Cert.ReferenceIdeal.RefValue.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
